-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x10x128 : Shape := ⟨3, ![1024, 10, 128]⟩
abbrev S1024x10x32x128 : Shape := ⟨4, ![1024, 10, 32, 128]⟩
abbrev S128x128 : Shape := ⟨2, ![128, 128]⟩
abbrev S256 : Shape := ⟨1, ![256]⟩
abbrev S_ : Shape := ⟨0, ![]⟩

class Facts : Prop where
  bcast_S_S1024x10x128 : S_.BroadcastsInDim S1024x10x128 (![] : Fin 0 → Fin S1024x10x128.rank)
  reducesTo_S1024x10x128_S_d0_1_2 : S1024x10x128.ReducesTo [0, 1, 2] S_
  h_S_ : 0 < S_.numel
  bcast_S_S1024x10x32x128 : S_.BroadcastsInDim S1024x10x32x128 (![] : Fin 0 → Fin S1024x10x32x128.rank)
  reducesTo_S1024x10x32x128_S_d0_1_2_3 : S1024x10x32x128.ReducesTo [0, 1, 2, 3] S_
  bcast_S_S128x128 : S_.BroadcastsInDim S128x128 (![] : Fin 0 → Fin S128x128.rank)
  reducesTo_S128x128_S_d0_1 : S128x128.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S128x128 .f32) (main_arg5 : FVec F S128x128 .f32) (main_arg6 : FVec F S256 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S1024x10x128 .f32) (main_arg1 : FVec F S1024x10x32x128 .f32) (main_arg2 : FVec F S1024x10x32x128 .f32) (main_arg3 : FVec F S128x128 .f32) (main_arg4 : FVec F S128x128 .f32) (main_arg5 : FVec F S128x128 .f32) (main_arg6 : FVec F S256 .f32) : IVec S_ 1 :=
  let main_v0 : FVec F S1024x10x128 .f32 := Host.absf main_arg0
  let main_cst : FVec F S_ .f32 := constant S_ .f32 0x7F800000#32
  let main_v1 : FVec F S1024x10x128 .f32 := broadcastInDim S1024x10x128 ![] bcast_S_S1024x10x128 main_cst
  let main_v2 : IVec S1024x10x128 1 := cmpf .olt main_v0 main_v1
  let main_c : IVec S_ 1 := constantI S_ 1 1#1
  let main_v3 : IVec S_ 1 := (fun x v => Host.reduce IntOp.andi x v reducesTo_S1024x10x128_S_d0_1_2 h_S_) main_v2 main_c
  let main_v4 : FVec F S1024x10x32x128 .f32 := Host.absf main_arg1
  let main_cst_0 : FVec F S_ .f32 := constant S_ .f32 0x7F800000#32
  let main_v5 : FVec F S1024x10x32x128 .f32 := broadcastInDim S1024x10x32x128 ![] bcast_S_S1024x10x32x128 main_cst_0
  let main_v6 : IVec S1024x10x32x128 1 := cmpf .olt main_v4 main_v5
  let main_c_1 : IVec S_ 1 := constantI S_ 1 1#1
  let main_v7 : IVec S_ 1 := (fun x v => Host.reduce IntOp.andi x v reducesTo_S1024x10x32x128_S_d0_1_2_3 h_S_) main_v6 main_c_1
  let main_v8 : IVec S_ 1 := andi main_v3 main_v7
  let main_v9 : FVec F S1024x10x32x128 .f32 := Host.absf main_arg2
  let main_cst_2 : FVec F S_ .f32 := constant S_ .f32 0x7F800000#32
  let main_v10 : FVec F S1024x10x32x128 .f32 := broadcastInDim S1024x10x32x128 ![] bcast_S_S1024x10x32x128 main_cst_2
  let main_v11 : IVec S1024x10x32x128 1 := cmpf .olt main_v9 main_v10
  let main_c_3 : IVec S_ 1 := constantI S_ 1 1#1
  let main_v12 : IVec S_ 1 := (fun x v => Host.reduce IntOp.andi x v reducesTo_S1024x10x32x128_S_d0_1_2_3 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S1024x10x128 : Shape := ⟨3, ![1024, 10, 128]⟩
abbrev S1024x10x32x128 : Shape := ⟨4, ![1024, 10, 32, 128]⟩
abbrev S128x128 : Shape := ⟨2, ![128, 128]⟩
abbrev S256 : Shape := ⟨1, ![256]⟩
abbrev S10240x128 : Shape := ⟨2, ![10240, 128]⟩
abbrev S10240x32x128 : Shape := ⟨3, ![10240, 32, 128]⟩
abbrev S1x256 : Shape := ⟨2, ![1, 256]⟩
abbrev S10240x256 : Shape := ⟨2, ![10240, 256]⟩
abbrev S256x128 : Shape := ⟨2, ![256, 128]⟩
abbrev S256x32x128 : Shape := ⟨3, ![256, 32, 128]⟩
abbrev S256x256 : Shape := ⟨2, ![256, 256]⟩
abbrev S1024x10x256 : Shape := ⟨3, ![1024, 10, 256]⟩

abbrev nBuf : Space → Nat
  | .hbm => 13
  | .vmem => 12
  | .smem => 0
  | _ => 0

abbrev bufTy : (tb : Table) → Fin (tcTables nBuf tb) → BufTy
  | .hbm, ⟨0, _⟩ => ⟨S1024x10x128, .f32⟩
  | .hbm, ⟨1, _⟩ => ⟨S1024x10x32x128, .f32⟩
  | .hbm, ⟨2, _⟩ => ⟨S1024x10x32x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S256, .f32⟩
  | .hbm, ⟨7, _⟩ => ⟨S10240x128, .f32⟩
  | .hbm, ⟨8, _⟩ => ⟨S10240x32x128, .f32⟩
  | .hbm, ⟨9, _⟩ => ⟨S10240x32x128, .f32⟩
  | .hbm, ⟨10, _⟩ => ⟨S1x256, .f32⟩
  | .hbm, ⟨11, _⟩ => ⟨S10240x256, .f32⟩
  | .hbm, ⟨12, _⟩ => ⟨S1024x10x256, .f32⟩
  | .local _ .vmem, ⟨0, _⟩ => ⟨S256x128, .f32⟩
  | .local _ .vmem, ⟨1, _⟩ => ⟨S256x128, .f32⟩
  | .local _ .vmem, ⟨2, _⟩ => ⟨S256x32x128, .f32⟩
  | .local _ .vmem, ⟨3, _⟩ => ⟨S256x32x128, .f32⟩
  | .local _ .vmem, ⟨4, _⟩ => ⟨S256x32x128, .f32⟩
  | .local _ .vmem, ⟨5, _⟩ => ⟨S256x32x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | _, _ => ⟨S1024x10x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1024x10x128_S10240x128 : S1024x10x128.ShapeCasts S10240x128
  shapeCasts_S1024x10x32x128_S10240x32x128 : S1024x10x32x128.ShapeCasts S10240x32x128
  shapeCasts_S256_S1x256 : S256.ShapeCasts S1x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x32x128_S256x32x128_0_0_0 : ∀ a, (![0, 0, 0] : Fin 3 → Nat) a + S256x32x128.size a ≤ S256x32x128.size a
  h_S256x32x128 : 0 < S256x32x128.numel
  shapeCasts_S256x32x128_S256x32x128 : S256x32x128.ShapeCasts S256x32x128
  reduces_S256x32x128_S256x128 : S256x32x128.Reduces [1] S256x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  concatenates_S256x128_S256x128_S256x256_d1 : Shape.Concatenates [S256x128, S256x128] S256x256 1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S10240x256_S1024x10x256 : S10240x256.ShapeCasts S1024x10x256
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S10240x128.size a
  hwx0_0 : ∀ i : grid0.Coords, EltTy.bits .f32 = 32 ∨ (Rect.block (s := S10240x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32x128.size a ≤ S10240x32x128.size a
  hwx0_1 : ∀ i : grid0.Coords, EltTy.bits .f32 = 32 ∨ (Rect.block (s := S10240x32x128) S256x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32x128.size a ≤ S10240x32x128.size a
  hwx0_2 : ∀ i : grid0.Coords, EltTy.bits .f32 = 32 ∨ (Rect.block (s := S10240x32x128) S256x32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S10240x256.size a
  hwx0_7 : ∀ i : grid0.Coords, EltTy.bits .f32 = 32 ∨ (Rect.block (s := S10240x256) S256x256.size (cc0_transform_7 i) (hinb0_7 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_v0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x10x128 : Shape := ⟨3, ![1024, 10, 128]⟩
abbrev S1024x10x32x128 : Shape := ⟨4, ![1024, 10, 32, 128]⟩
abbrev S128x128 : Shape := ⟨2, ![128, 128]⟩
abbrev S256 : Shape := ⟨1, ![256]⟩
abbrev S_ : Shape := ⟨0, ![]⟩
abbrev S1024x10x256 : Shape := ⟨3, ![1024, 10, 256]⟩
abbrev S1x1x256 : Shape := ⟨3, ![1, 1, 256]⟩

abbrev nBuf : Space → Nat
  | .hbm => 31
  | .vmem => 0
  | .smem => 0
  | _ => 0

abbrev bufTy : (tb : Table) → Fin (tcTables nBuf tb) → BufTy
  | .hbm, ⟨0, _⟩ => ⟨S1024x10x128, .f32⟩
  | .hbm, ⟨1, _⟩ => ⟨S1024x10x32x128, .f32⟩
  | .hbm, ⟨2, _⟩ => ⟨S1024x10x32x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S256, .f32⟩
  | .hbm, ⟨7, _⟩ => ⟨S_, .f32⟩
  | .hbm, ⟨8, _⟩ => ⟨S1024x10x128, .f32⟩
  | .hbm, ⟨9, _⟩ => ⟨S1024x10x128, .f32⟩
  | .hbm, ⟨10, _⟩ => ⟨S_, .f32⟩
  | .hbm, ⟨11, _⟩ => ⟨S1024x10x128, .f32⟩
  | .hbm, ⟨12, _⟩ => ⟨S1024x10x128, .f32⟩
  | .hbm, ⟨13, _⟩ => ⟨S_, .f32⟩
  | .hbm, ⟨14, _⟩ => ⟨S1024x10x128, .f32⟩
  | .hbm, ⟨15, _⟩ => ⟨S1024x10x128, .f32⟩
  | .hbm, ⟨16, _⟩ => ⟨S_, .f32⟩
  | .hbm, ⟨17, _⟩ => ⟨S1024x10x128, .f32⟩
  | .hbm, ⟨18, _⟩ => ⟨S1024x10x128, .f32⟩
  | .hbm, ⟨19, _⟩ => ⟨S1024x10x128, .f32⟩
  | .hbm, ⟨20, _⟩ => ⟨S_, .f32⟩
  | .hbm, ⟨21, _⟩ => ⟨S1024x10x128, .f32⟩
  | .hbm, ⟨22, _⟩ => ⟨S1024x10x128, .f32⟩
  | .hbm, ⟨23, _⟩ => ⟨S1024x10x128, .f32⟩
  | .hbm, ⟨24, _⟩ => ⟨S1024x10x256, .f32⟩
  | .hbm, ⟨25, _⟩ => ⟨S1x1x256, .f32⟩
  | .hbm, ⟨26, _⟩ => ⟨S1024x10x256, .f32⟩
  | .hbm, ⟨27, _⟩ => ⟨S1024x10x256, .f32⟩
  | .hbm, ⟨28, _⟩ => ⟨S_, .f32⟩
  | .hbm, ⟨29, _⟩ => ⟨S1024x10x256, .f32⟩
  | .hbm, ⟨30, _⟩ => ⟨S1024x10x256, .f32⟩
  | _, _ => ⟨S1024x10x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_cst : Ref sig .tc := ⟨.hbm, 28, rfl⟩
abbrev main_call0_v0 : Ref sig .tc := ⟨.hbm, 29, rfl⟩
abbrev main_v16 : Ref sig .tc := ⟨.hbm, 30, rfl⟩

abbrev nD : Nat := 1
abbrev τ : Topo := Topo.v7x

variable {F : FTy → Type} [FloatOps F]

class Facts₀ : Prop where
  reducesTo_S1024x10x32x128_S1024x10x128_d2 : S1024x10x32x128.ReducesTo [2] S1024x10x128
  h_S_ : 0 < S_.numel
  bcast_S_S1024x10x128 : S_.BroadcastsInDim S1024x10x128 (![] : Fin 0 → Fin S1024x10x128.rank)
  concatenates_S1024x10x128_S1024x10x128_S1024x10x256_d2 : Shape.Concatenates [S1024x10x128, S1024x10x128] S1024x10x256 2
  bcast_S256_S1x1x256_2 : S256.BroadcastsInDim S1x1x256 (![2] : Fin 1 → Fin S1x1x256.rank)
  bcast_S1x1x256_S1024x10x256_0_1_2 : S1x1x256.BroadcastsInDim S1024x10x256 (![0, 1, 2] : Fin 3 → Fin S1024x10x256.rank)
  bcast_S_S1024x10x256 : S_.BroadcastsInDim S1024x10x256 (![] : Fin 0 → Fin S1024x10x256.rank)
  dot_S1024x10x128_S128x128_S1024x10x128_2_0_01_1_n_n_wf : DotDims.WF S1024x10x128 S128x128 S1024x10x128 [2] [0] [0, 1] [1] [] []

variable [Facts₀]

def dot_S1024x10x128_S128x128_S1024x10x128_2_0_01_1_n_n : DotDims S1024x10x128 S128x128 S1024x10x128 where
  lhsContracting := [2]
  rhsContracting := [0]
  lhsNonContracting := [0, 1]
  rhsNonContracting := [1]
  lhsBatch := []
  rhsBatch := []
  wf := dot_S1024x10x128_S128x128_S1024x10x128_2_0_01_1_n_n_wf

class Facts : Prop extends Facts₀ where

variable [Facts]
-- ==== Proof.RowLaw.lean ====
/-
  One entry of the output, as a function of the data of its row, in the two arrangements the two programs use,
  and the law that makes them one function on the extended reals.

  The layer: for a row r (a pair (b, h)) and an output column d,
    d < 128  : the self half, sum over f of x_self[r, f] * w_self[f, d];
    d >= 128 : the neighbour half at d' = d - 128: the mean over the two relations of the projected mean over the 32 neighbours;
  then the bias is added and the result is clamped below at zero.

  The kernel takes the mean over the neighbours FIRST — (sum over n of x[r, n, f]) * (1/32) — and projects it, and halves the sum of
  the two projections by multiplying with 1/2. The reference projects the neighbour SUM and divides by 32 afterwards, and
  divides the sum of the two by 2. Both 1/32 and 1/2 are exact binary fractions, so the constants agree exactly, and the
  only law needed is that a finite nonnegative real factor moves across a finite sum of extended reals: this holds for
  EVERY extended real summand (no finiteness is used), because multiplication by a finite nonnegative number distributes
  over the sum of any two extended reals.
-/
import Idealize.ShloMosaic.PureOps.Ideal
import Idealize.ShloMosaic.PureOps.Ideal.Laws
import Idealize.ShloMosaic.Lib.ValueIdx

noncomputable section

open scoped BigOperators

namespace Cert.RowLaw

open Idealize.ShloMosaic Idealize.ShloMosaic.ValueIdx

/-! ## The four constants -/

/-- The kernel's factor 0.03125 is the real 1/32. -/
theorem inv32 : Ideal.ofBits .f32 0x3D000000#32 = ((1 / 32 : ℝ) : EReal) := by
  simp [Ideal.ofBits, Ideal.ieee, -EReal.coe_mul]; norm_num

/-- The kernel's factor 0.5 is the real 1/2. -/
theorem inv2 : Ideal.ofBits .f32 0x3F000000#32 = ((1 / 2 : ℝ) : EReal) := by
  simp [Ideal.ofBits, Ideal.ieee, -EReal.coe_mul]; norm_num

/-- The reference's divisor 32.0 is the real 32. -/
theorem lit32 : Ideal.ofBits .f32 0x42000000#32 = ((32 : ℝ) : EReal) := by
  simp [Ideal.ofBits, Ideal.ieee, -EReal.coe_mul]; norm_num

/-- The reference's divisor 2.0 is the real 2. -/
theorem lit2 : Ideal.ofBits .f32 0x40000000#32 = ((2 : ℝ) : EReal) := by
  simp [Ideal.ofBits, Ideal.ieee, -EReal.coe_mul]; norm_num

/-! ## A finite nonnegative factor moves across a finite sum -/

/-- For a real c >= 0 and any extended reals f i: c * (sum of f) = sum of (c * f i). -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

/-! ## The projected neighbour mean of one relation, in the two arrangements -/

/-- The kernel's: the mean over the 32 neighbours first, then the projection onto column d. -/
def projMeanFirst (y : Fin 32 → Fin 128 → EReal) (w : (⟨2, ![128, 128]⟩ : Shape).Idx → EReal) (d : Fin 128) : EReal :=
  ∑ f : Fin 128, ((∑ n : Fin 32, y n f) * Ideal.ofBits .f32 0x3D000000#32) * w (ix2 f d)

/-- The reference's: the neighbour sum (from the initial value 0.0) projected onto column d, then divided by 32.0. -/
def projThenDivide (y : Fin 32 → Fin 128 → EReal) (w : (⟨2, ![128, 128]⟩ : Shape).Idx → EReal) (d : Fin 128) : EReal :=
  Ideal.div (∑ f : Fin 128, (Ideal.ofBits .f32 0x00000000#32 + ∑ n : Fin 32, y n f) * w (ix2 f d))
    (Ideal.ofBits .f32 0x42000000#32)

/-- They agree: (s * c) * w = c * (s * w) term by term, and c = 1/32 moves out of the sum over f. -/
theorem projMeanFirst_eq (y : Fin 32 → Fin 128 → EReal) (w : (⟨2, ![128, 128]⟩ : Shape).Idx → EReal) (d : Fin 128) :
    projMeanFirst y w d = projThenDivide y w d := by
  unfold projMeanFirst projThenDivide
  rw [inv32, lit32, Ideal.div_coe (by norm_num : (32 : ℝ) ≠ 0), Ideal.ofBits_zero_f32, mul_comm _ (((1 / 32 : ℝ) : EReal)),
    coe_mul_sum _ _ (by norm_num)]
  refine Finset.sum_congr rfl fun f _ => ?_
  rw [zero_add, mul_comm (∑ n : Fin 32, y n f) _, mul_assoc]

/-! ## One output entry -/

/-- The kernel's arrangement of the entry at column q of a row with self features xs, neighbour features y0 and y1,
    weights ws, w0, w1 and bias entry bias. -/
def entryKernel (xs : Fin 128 → EReal) (y0 y1 : Fin 32 → Fin 128 → EReal)
    (ws w0 w1 : (⟨2, ![128, 128]⟩ : Shape).Idx → EReal) (bias : EReal) (q : Fin 256) : EReal :=
  max ((if h : q.val < 128 then ∑ f : Fin 128, xs f * ws (ix2 f ⟨q.val, h⟩)
        else (projMeanFirst y0 w0 ⟨q.val - 128, by have := q.isLt; omega⟩ + projMeanFirst y1 w1 ⟨q.val - 128, by have := q.isLt; omega⟩)
          * Ideal.ofBits .f32 0x3F000000#32) + bias)
    (Ideal.ofBits .f32 0x00000000#32)

/-- The reference's arrangement of the same entry. -/
def entryReference (xs : Fin 128 → EReal) (y0 y1 : Fin 32 → Fin 128 → EReal)
    (ws w0 w1 : (⟨2, ![128, 128]⟩ : Shape).Idx → EReal) (bias : EReal) (q : Fin 256) : EReal :=
  max ((if h : q.val < 128 then ∑ f : Fin 128, xs f * ws (ix2 f ⟨q.val, h⟩)
        else Ideal.div (projThenDivide y0 w0 ⟨q.val - 128, by have := q.isLt; omega⟩ + projThenDivide y1 w1 ⟨q.val - 128, by have := q.isLt; omega⟩)
          (Ideal.ofBits .f32 0x40000000#32)) + bias)
    (Ideal.ofBits .f32 0x00000000#32)

/-- One function: the two relations' projections agree (projMeanFirst_eq), and dividing by 2 is multiplying by 1/2. -/
theorem entryKernel_eq (xs : Fin 128 → EReal) (y0 y1 : Fin 32 → Fin 128 → EReal)
    (ws w0 w1 : (⟨2, ![128, 128]⟩ : Shape).Idx → EReal) (bias : EReal) (q : Fin 256) :
    entryKernel xs y0 y1 ws w0 w1 bias q = entryReference xs y0 y1 ws w0 w1 bias q := by
  unfold entryKernel entryReference
  by_cases h : q.val < 128
  · rw [dif_pos h, dif_pos h]
  · rw [dif_neg h, dif_neg h, projMeanFirst_eq, projMeanFirst_eq, inv2, lit2, Ideal.div_coe (by norm_num : (2 : ℝ) ≠ 0)]

/-- The entry function depends on its arguments only through their values. -/
theorem entryKernel_congr {xs xs' : Fin 128 → EReal} {y0 y0' y1 y1' : Fin 32 → Fin 128 → EReal}
    {ws ws' w0 w0' w1 w1' : (⟨2, ![128, 128]⟩ : Shape).Idx → EReal} {bias bias' : EReal} {q q' : Fin 256}
    (h0 : ∀ f, xs f = xs' f) (h1 : ∀ n f, y0 n f = y0' n f) (h2 : ∀ n f, y1 n f = y1' n f)
    (h3 : ∀ i, ws i = ws' i) (h4 : ∀ i, w0 i = w0' i) (h5 : ∀ i, w1 i = w1' i) (hb : bias = bias') (hq : q = q') :
    entryKernel xs y0 y1 ws w0 w1 bias q = entryKernel xs' y0' y1' ws' w0' w1' bias' q' := by
  obtain rfl : xs = xs' := funext h0
  obtain rfl : y0 = y0' := funext fun n => funext (h1 n)
  obtain rfl : y1 = y1' := funext fun n => funext (h2 n)
  obtain rfl : ws = ws' := funext h3
  obtain rfl : w0 = w0' := funext h4
  obtain rfl : w1 = w1' := funext h5
  subst hb hq
  rfl

/-! ## The whole result array -/

/-- The result array [1024, 10, 256] as a function of the seven argument arrays: the entry at (b, h, q) is the entry
    function of row (b, h)'s data — x_self[b, h, :], x_neigh_k[b, h, :, :], the three weight matrices, b[q]. -/
def layer (xs : (⟨3, ![1024, 10, 128]⟩ : Shape).Idx → EReal) (y0 y1 : (⟨4, ![1024, 10, 32, 128]⟩ : Shape).Idx → EReal)
    (ws w0 w1 : (⟨2, ![128, 128]⟩ : Shape).Idx → EReal) (bias : (⟨1, ![256]⟩ : Shape).Idx → EReal) :
    (⟨3, ![1024, 10, 256]⟩ : Shape).Idx → EReal := fun i =>
  entryReference (fun f => xs (ix3 (i 0 : Fin 1024) (i 1 : Fin 10) f))
    (fun n f => y0 (ix4 (i 0 : Fin 1024) (i 1 : Fin 10) n f)) (fun n f => y1 (ix4 (i 0 : Fin 1024) (i 1 : Fin 10) n f))
    ws w0 w1 (bias (ix1 (i 2 : Fin 256))) (i 2 : Fin 256)

end Cert.RowLaw

end
-- ==== Proof.ReferenceRow.lean ====
/-
  The reference program's result, read entry by entry, is the layer function of its seven arguments.

  Its last stage is max(concat(self, neigh) + bias, 0). At (b, h, q) the concatenation along the last axis reads the self
  projection at column q when q < 128 and the neighbour half at column q - 128 otherwise; each dot_general is a sum over the
  128 features, each neighbour reduction the initial 0.0 plus a sum over the 32 neighbours, the bias is broadcast from b[q].
-/
import proofs.«139541_j50294067036664_1_alg».proof.Proof.Gen.ReferenceIdeal.Read
import proofs.«139541_j50294067036664_1_alg».proof.Proof.RowLaw
import Idealize.ShloMosaic.Lib.Pipeline.Value

noncomputable section

open scoped BigOperators

namespace Cert.ReferenceRow

open Cert.ReferenceIdeal Cert.ReferenceIdeal.Gen Cert.ReferenceIdeal.Read
open Idealize.ShloMosaic Idealize.ShloMosaic.ValueIdx

/-- Relation 0's half at (b, h, d): the neighbour sum projected by w_neigh_0, divided by 32. -/
theorem relation0_apply (x1 : (⟨S1024x10x32x128, .f32⟩ : BufTy).Contents (Elt Ideal)) (x4 : (⟨S128x128, .f32⟩ : BufTy).Contents (Elt Ideal))
    (b : Fin 1024) (h : Fin 10) (d : Fin 128) :
    val_main_v3 (F := Ideal) x1 x4 (ix3 b h d) = RowLaw.projThenDivide (fun n f => x1 (ix4 b h n f)) x4 d := by
  rw [val_main_v3_apply, val_main_v1_apply, val_main_v2_apply, val_main_cst_0_apply]
  unfold RowLaw.projThenDivide
  show Ideal.div _ _ = Ideal.div _ _
  congr 1
  refine Finset.sum_congr rfl fun f _ => ?_
  rw [val_main_v0_apply, val_main_cst_apply]
  have er : ridx_main_v1 (ix3 b h d) f = ix2 f d := funext fun a => Fin.ext (by match a with | ⟨0, _⟩ => rfl | ⟨1, _⟩ => rfl)
  have el : ∀ n : Fin 32, idx_main_v0 (lidx_main_v1 (ix3 b h d) f) n = ix4 b h n f := fun n => funext fun a => Fin.ext (by
    match a with | ⟨0, _⟩ => rfl | ⟨1, _⟩ => rfl | ⟨2, _⟩ => rfl | ⟨3, _⟩ => rfl)
  rw [er]
  simp only [el]
  rfl

/-- Relation 1's half at (b, h, d): the same with x_neigh_1 and w_neigh_1. -/
theorem relation1_apply (x2 : (⟨S1024x10x32x128, .f32⟩ : BufTy).Contents (Elt Ideal)) (x5 : (⟨S128x128, .f32⟩ : BufTy).Contents (Elt Ideal))
    (b : Fin 1024) (h : Fin 10) (d : Fin 128) :
    val_main_v7 (F := Ideal) x2 x5 (ix3 b h d) = RowLaw.projThenDivide (fun n f => x2 (ix4 b h n f)) x5 d := by
  rw [val_main_v7_apply, val_main_v5_apply, val_main_v6_apply, val_main_cst_2_apply]
  unfold RowLaw.projThenDivide
  show Ideal.div _ _ = Ideal.div _ _
  congr 1
  refine Finset.sum_congr rfl fun f _ => ?_
  rw [val_main_v4_apply, val_main_cst_1_apply]
  have er : ridx_main_v5 (ix3 b h d) f = ix2 f d := funext fun a => Fin.ext (by match a with | ⟨0, _⟩ => rfl | ⟨1, _⟩ => rfl)
  have el : ∀ n : Fin 32, idx_main_v4 (lidx_main_v5 (ix3 b h d) f) n = ix4 b h n f := fun n => funext fun a => Fin.ext (by
    match a with | ⟨0, _⟩ => rfl | ⟨1, _⟩ => rfl | ⟨2, _⟩ => rfl | ⟨3, _⟩ => rfl)
  rw [er]
  simp only [el]
  rfl

/-- The self projection at (b, h, d): the sum over f of x_self[b, h, f] * w_self[f, d]. -/
theorem self_apply (x0 : (⟨S1024x10x128, .f32⟩ : BufTy).Contents (Elt Ideal)) (x3 : (⟨S128x128, .f32⟩ : BufTy).Contents (Elt Ideal))
    (b : Fin 1024) (h : Fin 10) (d : Fin 128) :
    val_main_v11 (F := Ideal) x0 x3 (ix3 b h d) = ∑ f : Fin 128, x0 (ix3 b h f) * x3 (ix2 f d) := by
  rw [val_main_v11_apply]
  refine Finset.sum_congr rfl fun f _ => ?_
  have el : lidx_main_v11 (ix3 b h d) f = ix3 b h f := funext fun a => Fin.ext (by
    match a with | ⟨0, _⟩ => rfl | ⟨1, _⟩ => rfl | ⟨2, _⟩ => rfl)
  have er : ridx_main_v11 (ix3 b h d) f = ix2 f d := funext fun a => Fin.ext (by match a with | ⟨0, _⟩ => rfl | ⟨1, _⟩ => rfl)
  rw [el, er]

/-- The concatenated halves at (b, h, q): the self projection left of column 128, the halved sum of the two relations right of it. -/
theorem halves_apply (x0 : (⟨S1024x10x128, .f32⟩ : BufTy).Contents (Elt Ideal)) (x1 x2 : (⟨S1024x10x32x128, .f32⟩ : BufTy).Contents (Elt Ideal))
    (x3 x4 x5 : (⟨S128x128, .f32⟩ : BufTy).Contents (Elt Ideal)) (b : Fin 1024) (h : Fin 10) (q : Fin 256) :
    val_main_v12 (F := Ideal) x0 x1 x2 x3 x4 x5 (ix3 b h q)
      = if hq : q.val < 128 then ∑ f : Fin 128, x0 (ix3 b h f) * x3 (ix2 f ⟨q.val, hq⟩)
        else Ideal.div (RowLaw.projThenDivide (fun n f => x1 (ix4 b h n f)) x4 ⟨q.val - 128, by have := q.isLt; omega⟩
            + RowLaw.projThenDivide (fun n f => x2 (ix4 b h n f)) x5 ⟨q.val - 128, by have := q.isLt; omega⟩)
          (Ideal.ofBits .f32 0x40000000#32) := by
  unfold val_main_v12
  by_cases hq : q.val < 128
  · rw [dif_pos hq]
    refine (concatenate_pair_apply_left (s₁ := S1024x10x128) (s₂ := S1024x10x128) _ _ _ _ (ix3 b h q) rfl (ix3 b h (⟨q.val, hq⟩ : Fin 128)) (fun a => by
      match a with | ⟨0, _⟩ => rfl | ⟨1, _⟩ => rfl | ⟨2, _⟩ => rfl)).trans ?_
    exact self_apply x0 x3 b h ⟨q.val, hq⟩
  · rw [dif_neg hq]
    have hlt : q.val - 128 < 128 := by have := q.isLt; omega
    refine (concatenate_pair_apply_right (s₁ := S1024x10x128) (s₂ := S1024x10x128) _ _ _ _ (ix3 b h q) rfl rfl (ix3 b h (⟨q.val - 128, hlt⟩ : Fin 128)) (fun a => by
      match a with
      | ⟨0, _⟩ => exact fun _ => rfl
      | ⟨1, _⟩ => exact fun _ => rfl
      | ⟨2, _⟩ => exact fun hne => absurd rfl hne) (by show q.val - 128 + 128 = q.val; omega)).trans ?_
    rw [val_main_v10_apply, val_main_v8_apply, val_main_v9_apply, val_main_cst_3_apply, relation0_apply, relation1_apply]
    rfl

/-- The reference's last stage is the layer function. -/
theorem result_eq (x0 : (⟨S1024x10x128, .f32⟩ : BufTy).Contents (Elt Ideal)) (x1 x2 : (⟨S1024x10x32x128, .f32⟩ : BufTy).Contents (Elt Ideal))
    (x3 x4 x5 : (⟨S128x128, .f32⟩ : BufTy).Contents (Elt Ideal)) (x6 : (⟨S256, .f32⟩ : BufTy).Contents (Elt Ideal)) :
    val_main_v16 (F := Ideal) x0 x1 x2 x3 x4 x5 x6 = RowLaw.layer x0 x1 x2 x3 x4 x5 x6 := by
  funext i
  obtain ⟨b, h, q, rfl⟩ : ∃ (b : Fin 1024) (h : Fin 10) (q : Fin 256), i = ix3 b h q := ⟨i 0, i 1, i 2, eq_ix3 i⟩
  rw [val_main_v16_apply, val_main_v15_apply, val_main_call0_v0_apply, val_main_call0_cst_apply, val_main_v14_apply,
    val_main_v13_apply, halves_apply]
  have hb : idx_main_v13 (idx_main_v14 (ix3 b h q)) = ix1 q := funext fun a => Fin.ext (by match a with | ⟨0, _⟩ => rfl)
  rw [hb]
  rfl

end Cert.ReferenceRow

end
-- ==== Proof.KernelRow.lean ====
/-
  The kernel body's stored value, read at one entry of the output block.

  The body loads the seven blocks, sums each neighbour block over its middle axis and scales by 1/32, multiplies the three
  [256, 128] matrices by the three weight matrices (narrowing to bf16 first, which changes nothing at the exact values),
  halves the sum of the two neighbour products, lays the self product and that half side by side, adds the bias row and
  clamps at zero. At row p and column q of the block this is the entry function of row p's data, in the kernel's arrangement.
-/
import proofs.«139541_j50294067036664_1_alg».proof.Proof.Gen.KernelIdeal.Skeleton
import proofs.«139541_j50294067036664_1_alg».proof.Proof.RowLaw
import Idealize.ShloMosaic.Lib.Pipeline.Value
import Idealize.ShloMosaic.Lib.ValueIdx
import Idealize.ShloMosaic.PureOps.Ideal.Laws

noncomputable section

open scoped BigOperators

namespace Cert.KernelRow

open Cert.KernelIdeal Cert.KernelIdeal.Gen
open Idealize.ShloMosaic Idealize.ShloMosaic.ValueIdx

/-! ## The matrix product's operand indices, axis by axis -/

theorem lhs_axis0 (i : S256x128.Idx) (k : dot_S256x128_S128x128_S256x128_1_0_0_1_n_n.contr.Idx) :
    (dot_S256x128_S128x128_S256x128_1_0_0_1_n_n.lhsIdx i k 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem lhs_axis1 (i : S256x128.Idx) (k : dot_S256x128_S128x128_S256x128_1_0_0_1_n_n.contr.Idx) :
    (dot_S256x128_S128x128_S256x128_1_0_0_1_n_n.lhsIdx i k 1).val = (k ⟨0, by decide⟩).val :=
  dot_S256x128_S128x128_S256x128_1_0_0_1_n_n.lhsIdx_val_of_single rfl i k
theorem rhs_axis0 (i : S256x128.Idx) (k : dot_S256x128_S128x128_S256x128_1_0_0_1_n_n.contr.Idx) :
    (dot_S256x128_S128x128_S256x128_1_0_0_1_n_n.rhsIdx i k 0).val = (k ⟨0, by decide⟩).val :=
  dot_S256x128_S128x128_S256x128_1_0_0_1_n_n.rhsIdx_val_of_single rfl i k
theorem rhs_axis1 (i : S256x128.Idx) (k : dot_S256x128_S128x128_S256x128_1_0_0_1_n_n.contr.Idx) :
    (dot_S256x128_S128x128_S256x128_1_0_0_1_n_n.rhsIdx i k 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- A [256, 128] x [128, 128] product into a zero accumulator, at (p, d): the sum over the 128 features. -/
theorem product_apply (a : FVec Ideal S256x128 .bf16) (w : FVec Ideal S128x128 .bf16) (p : Fin 256) (d : Fin 128) :
    matmul dot_S256x128_S128x128_S256x128_1_0_0_1_n_n none a w (constant (F := Ideal) S256x128 .f32 0x00000000#32) (ix2 p d)
      = ∑ f : Fin 128, a (ix2 p f) * w (ix2 f d) := by
  simp only [matmul]
  rw [Ideal.matmul_constant_zero_apply, ← Equiv.sum_comp (ValueIdx.contrEquiv1 dot_S256x128_S128x128_S256x128_1_0_0_1_n_n 128 rfl rfl).symm]
  refine Finset.sum_congr rfl fun k _ => ?_
  have hk := ValueIdx.contrEquiv1_symm_val dot_S256x128_S128x128_S256x128_1_0_0_1_n_n 128 rfl rfl k
  have el : dot_S256x128_S128x128_S256x128_1_0_0_1_n_n.lhsIdx (ix2 p d) ((ValueIdx.contrEquiv1 dot_S256x128_S128x128_S256x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S256x128_S128x128_S256x128_1_0_0_1_n_n.rhsIdx (ix2 p d) ((ValueIdx.contrEquiv1 dot_S256x128_S128x128_S256x128_1_0_0_1_n_n 128 rfl rfl).symm k) = ix2 k d := funext fun a => Fin.ext (by
    match a with
    | ⟨0, _⟩ => exact (rhs_axis0 _ _).trans hk
    | ⟨1, _⟩ => exact rhs_axis1 _ _)
  rw [el, er]

/-- The sum of a [256, 32, 128] block over its middle axis, at (p, f): the sum over the 32 neighbours. -/
theorem neighbourSum_apply (x : FVec Ideal S256x32x128 .f32) (hφ : FKind.Formats .f32)
    (hacc : (0x00000000#32 : BitVec 32) = FKind.add.neutral .f32 hφ) (p : Fin 256) (f : Fin 128) :
    multiReduction .add [1] S256x128 x 0x00000000#32 reduces_S256x32x128_S256x128 hφ hacc (ix2 p f)
      = ∑ n : Fin 32, x (ix3 p n f) := by
  refine (Ideal.multiReduction_add_single x 0x00000000#32 reduces_S256x32x128_S256x128 hφ hacc (ix2 p f)).trans ?_
  refine Finset.sum_congr rfl fun n _ => congrArg x (funext fun a => Fin.ext (by
    match a with | ⟨0, _⟩ => rfl | ⟨1, _⟩ => rfl | ⟨2, _⟩ => rfl))

/-- The bias row broadcast down the 256 rows, at (p, q): the row's entry q. -/
theorem biasRow_apply (x : S1x256.Idx → EReal) (p q : Fin 256) :
    broadcastTo S256x256 x broadcasts_S1x256_S256x256 (ix2 p q) = x (ix2 (0 : Fin 1) q) :=
  broadcastTo_apply x broadcasts_S1x256_S256x256 (ix2 p q) (ix2 (0 : Fin 1) q) (fun a => by
    match a with
    | ⟨0, _⟩ => show 0 = if (1 : Nat) = 1 then 0 else _; rw [if_pos rfl]
    | ⟨1, _⟩ => show q.val = if (256 : Nat) = 1 then 0 else q.val; rw [if_neg (by decide)])

/-- The projected neighbour mean of one relation at (p, d), as the body computes it. -/
theorem relation_apply (x : FVec Ideal S256x32x128 .f32) (w : FVec Ideal S128x128 .f32) (p : Fin 256) (d : Fin 128) :
    matmul dot_S256x128_S128x128_S256x128_1_0_0_1_n_n none
        (truncf .bf16 (mulf (multiReduction .add [1] S256x128 x 0x00000000#32 reduces_S256x32x128_S256x128 (.inl rfl) rfl)
          (broadcast S256x128 (Scalar.ofBits (F := Ideal) .f32 0x3D000000#32))) bitsLt_bf16_f32)
        (truncf .bf16 w bitsLt_bf16_f32) (constant (F := Ideal) S256x128 .f32 0x00000000#32) (ix2 p d)
      = RowLaw.projMeanFirst (fun n f => x (ix3 p n f)) w d := by
  refine (product_apply _ _ p d).trans ?_
  unfold RowLaw.projMeanFirst
  refine Finset.sum_congr rfl fun f _ => ?_
  rw [truncf_apply, truncf_apply, mulf_apply, broadcast_apply]
  refine congrArg (fun s => s * _ * _) ?_
  exact neighbourSum_apply x _ _ p f

/-- THE STORED VALUE at (p, q) is the entry function, in the kernel's arrangement, of row p of the blocks. -/
theorem payload_apply (x0 : Vec Ideal S256x128 .f32) (x1 x2 : Vec Ideal S256x32x128 .f32) (x3 x4 x5 : Vec Ideal S128x128 .f32)
    (x6 : Vec Ideal S1x256 .f32) (p q : Fin 256) :
    k0_pay1 (F := Ideal) x0 x1 x2 x3 x4 x5 x6 (ix2 p q)
      = RowLaw.entryKernel (fun f => x0 (ix2 p f)) (fun n f => x1 (ix3 p n f)) (fun n f => x2 (ix3 p n f)) x3 x4 x5
          (x6 (ix2 (0 : Fin 1) q)) q := by
  unfold k0_pay1 RowLaw.entryKernel
  dsimp only
  rw [maximumf_apply, addf_apply, broadcast_apply, biasRow_apply, shapeCast_self x6]
  refine congrArg (fun s : EReal => max (s + x6 (ix2 (0 : Fin 1) q)) (Ideal.ofBits .f32 0x00000000#32)) ?_
  by_cases hq : q.val < 128
  · rw [dif_pos hq]
    refine (concatenate_pair_apply_left (s₁ := S256x128) (s₂ := S256x128) _ _ _ _ (ix2 p q) rfl (ix2 p (⟨q.val, hq⟩ : Fin 128)) (fun a => by
      match a with | ⟨0, _⟩ => rfl | ⟨1, _⟩ => rfl)).trans ?_
    refine (product_apply _ _ p ⟨q.val, hq⟩).trans ?_
    refine Finset.sum_congr rfl fun f _ => ?_
    rw [truncf_apply, truncf_apply, shapeCast_self]
  · rw [dif_neg hq]
    have hlt : q.val - 128 < 128 := by have := q.isLt; omega
    refine (concatenate_pair_apply_right (s₁ := S256x128) (s₂ := S256x128) _ _ _ _ (ix2 p q) rfl rfl (ix2 p (⟨q.val - 128, hlt⟩ : Fin 128)) (fun a => by
      match a with
      | ⟨0, _⟩ => exact fun _ => rfl
      | ⟨1, _⟩ => exact fun hne => absurd rfl hne) (by show q.val - 128 + 128 = q.val; omega)).trans ?_
    rw [mulf_apply, addf_apply, broadcast_apply, relation_apply, relation_apply, shapeCast_self x1, shapeCast_self x2]
    rfl

end Cert.KernelRow

end
-- ==== Proof.KernelArray.lean ====
/-
  From the blocks to the result array, and through the reshapes around the kernel.

  The program flattens the row axes (b, h) of x_self and of the two neighbour arrays into one axis r = 10 b + h, reshapes
  the bias to one row, runs the kernel on 40 row blocks of 256 rows each, and reshapes the [10240, 256] output back to
  [1024, 10, 256]. Point t of the grid reads rows 256 t .. 256 t + 255 of the flattened inputs (and the whole weight
  matrices and bias row) and writes rows 256 t .. 256 t + 255 of the output: the 40 blocks tile the output, so the output
  array is one function of the flattened arrays, row by row; read back through the reshapes it is the layer function.
-/
import proofs.«139541_j50294067036664_1_alg».proof.Proof.Gen.KernelIdeal.Frame
import proofs.«139541_j50294067036664_1_alg».proof.Proof.KernelRow
import Idealize.ShloMosaic.Lib.StableHlo.Run

set_option maxRecDepth 16384

noncomputable section

open scoped BigOperators

namespace Cert.KernelArray

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The output array over the flattened arrays -/

/-- The [10240, 256] array: entry (r, q) is the entry function, in the kernel's arrangement, of row r of the flattened inputs. -/
def flatLayer (xs : S10240x128.Idx → EReal) (y0 y1 : S10240x32x128.Idx → EReal) (ws w0 w1 : S128x128.Idx → EReal)
    (bias : S1x256.Idx → EReal) : S10240x256.Idx → EReal := fun i =>
  RowLaw.entryKernel (fun f => xs (ix2 (i 0 : Fin 10240) f)) (fun n f => y0 (ix3 (i 0 : Fin 10240) n f))
    (fun n f => y1 (ix3 (i 0 : Fin 10240) n f)) ws w0 w1 (bias (ix2 (0 : Fin 1) (i 1 : Fin 256))) (i 1 : Fin 256)

theorem zero2 : (![0, 0] : Fin 2 → Nat) = fun _ => 0 := funext fun a => by fin_cases a <;> rfl
theorem zero3 : (![0, 0, 0] : Fin 3 → Nat) = fun _ => 0 := funext fun a => by fin_cases a <;> rfl

/-- The block indices over the grid: the row-blocked windows are at block t on the row axis and block 0 elsewhere, the
    weights and the bias at block 0 throughout. -/
theorem block_indices : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- What point t writes back is block t of the flat layer of the arrays as the kernel finds them. -/
theorem flushed_eq (c : Dev nD) (t : Fin cfg0.N) :
    (dats m 0 c).flushed 7 t = ((cfg0.win 7).blk t).view.read (Elt Ideal)
      (flatLayer (V m c main_v0) (V m c main_v1) (V m c main_v2) (V m c main_arg3) (V m c main_arg4) (V m c main_arg5) (V m c main_v3)) := by
  show (cfg0.win 7).cut (grid0.coords t) ((dats m 0 c).after 7 t) = _
  rw [after0_7]
  unfold out0_7
  rw [View.canon_unit_zero zero2]
  simp only [View.ld_unit_zero (S := S256x128) zero2, View.ld_unit_zero (S := S256x32x128) zero3,
    View.ld_unit_zero (S := S128x128) zero2, View.ld_unit_zero (S := S1x256) zero2]
  obtain ⟨e00, e01, e10, e11, e12, e20, e21, e22, e30, e31, e40, e41, e50, e51, e60, e61, e70, e71⟩ := block_indices t
  funext j
  obtain ⟨p, q, rfl⟩ : ∃ (p q : Fin 256), j = (ix2 p q : S256x256.Idx) := ⟨j 0, j 1, eq_ix2 (n0 := 256) (n1 := 256) j⟩
  show k0_pay1 (F := Ideal) (iblk m c 0 t) (iblk m c 1 t) (iblk m c 2 t) (iblk m c 3 t) (iblk m c 4 t) (iblk m c 5 t) (iblk m c 6 t) (ix2 p q)
    = flatLayer (V m c main_v0) (V m c main_v1) (V m c main_v2) (V m c main_arg3) (V m c main_arg4) (V m c main_arg5) (V m c main_v3)
        (((cfg0.win 7).blk t).view.emb (ix2 p q))
  refine (KernelRow.payload_apply (iblk m c 0 t) (iblk m c 1 t) (iblk m c 2 t) (iblk m c 3 t) (iblk m c 4 t) (iblk m c 5 t) (iblk m c 6 t) p q).trans ?_
  unfold flatLayer
  have hrow : ((((cfg0.win 7).blk t).view.emb (ix2 p q)) 0).val = t.val * 256 + p.val := by
    show win0_7.index t (0 : Fin 2) * 256 + 1 * p.val = _; omega
  have hcol : ((((cfg0.win 7).blk t).view.emb (ix2 p q)) 1).val = q.val := by
    show win0_7.index t (1 : Fin 2) * 256 + 1 * q.val = _; omega
  refine RowLaw.entryKernel_congr (fun f => ?_) (fun n f => ?_) (fun n f => ?_) (fun i => ?_) (fun i => ?_) (fun i => ?_) ?_ (Fin.ext hcol.symm)
  · show V m c main_v0 (((cfg0.win 0).blk t).view.emb (ix2 p f)) = V m c main_v0 _
    refine congrArg _ (funext fun a => Fin.ext ?_)
    match a with
    | ⟨0, _⟩ => show win0_0.index t (0 : Fin 2) * 256 + 1 * p.val = ((((cfg0.win 7).blk t).view.emb (ix2 p q)) 0).val; rw [hrow]; omega
    | ⟨1, _⟩ => show win0_0.index t (1 : Fin 2) * 128 + 1 * f.val = f.val; omega
  · show V m c main_v1 (((cfg0.win 1).blk t).view.emb (ix3 p n f)) = V m c main_v1 _
    refine congrArg _ (funext fun a => Fin.ext ?_)
    match a with
    | ⟨0, _⟩ => show win0_1.index t (0 : Fin 3) * 256 + 1 * p.val = ((((cfg0.win 7).blk t).view.emb (ix2 p q)) 0).val; rw [hrow]; omega
    | ⟨1, _⟩ => show win0_1.index t (1 : Fin 3) * 32 + 1 * n.val = n.val; omega
    | ⟨2, _⟩ => show win0_1.index t (2 : Fin 3) * 128 + 1 * f.val = f.val; omega
  · show V m c main_v2 (((cfg0.win 2).blk t).view.emb (ix3 p n f)) = V m c main_v2 _
    refine congrArg _ (funext fun a => Fin.ext ?_)
    match a with
    | ⟨0, _⟩ => show win0_2.index t (0 : Fin 3) * 256 + 1 * p.val = ((((cfg0.win 7).blk t).view.emb (ix2 p q)) 0).val; rw [hrow]; omega
    | ⟨1, _⟩ => show win0_2.index t (1 : Fin 3) * 32 + 1 * n.val = n.val; omega
    | ⟨2, _⟩ => show win0_2.index t (2 : Fin 3) * 128 + 1 * f.val = f.val; omega
  · show V m c main_arg3 (((cfg0.win 3).blk t).view.emb i) = V m c main_arg3 i
    refine congrArg _ (funext fun a => Fin.ext ?_)
    match a with
    | ⟨0, _⟩ => show win0_3.index t (0 : Fin 2) * 128 + 1 * (i 0).val = (i 0).val; omega
    | ⟨1, _⟩ => show win0_3.index t (1 : Fin 2) * 128 + 1 * (i 1).val = (i 1).val; omega
  · show V m c main_arg4 (((cfg0.win 4).blk t).view.emb i) = V m c main_arg4 i
    refine congrArg _ (funext fun a => Fin.ext ?_)
    match a with
    | ⟨0, _⟩ => show win0_4.index t (0 : Fin 2) * 128 + 1 * (i 0).val = (i 0).val; omega
    | ⟨1, _⟩ => show win0_4.index t (1 : Fin 2) * 128 + 1 * (i 1).val = (i 1).val; omega
  · show V m c main_arg5 (((cfg0.win 5).blk t).view.emb i) = V m c main_arg5 i
    refine congrArg _ (funext fun a => Fin.ext ?_)
    match a with
    | ⟨0, _⟩ => show win0_5.index t (0 : Fin 2) * 128 + 1 * (i 0).val = (i 0).val; omega
    | ⟨1, _⟩ => show win0_5.index t (1 : Fin 2) * 128 + 1 * (i 1).val = (i 1).val; omega
  · show V m c main_v3 (((cfg0.win 6).blk t).view.emb (ix2 (0 : Fin 1) q)) = V m c main_v3 _
    refine congrArg _ (funext fun a => Fin.ext ?_)
    match a with
    | ⟨0, _⟩ => show win0_6.index t (0 : Fin 2) * 1 + 1 * 0 = 0; omega
    | ⟨1, _⟩ => show win0_6.index t (1 : Fin 2) * 256 + 1 * q.val = ((((cfg0.win 7).blk t).view.emb (ix2 p q)) 1).val; rw [hcol]; omega

/-- An index of the output array is in point t's block iff each coordinate is in the block's range on its axis. -/
theorem mem_block (t : Fin cfg0.N) (i : S10240x256.Idx) :
    i ∈ ((cfg0.win 7).blk t).view.set ↔ ∀ a : Fin 2, win0_7.index t a * S256x256.size a ≤ (i a).val ∧ (i a).val < win0_7.index t a * S256x256.size a + S256x256.size a := by
  show i ∈ ((View.whole main_v4).slice (win0_7.rect t)).set ↔ _
  rw [View.set_slice_whole, Rect.mem_set_unit]
  exact Iff.rfl

/-- Every index of the output array lies in the block of the point that holds its row: point (row / 256). -/
theorem covered (i : S10240x256.Idx) : ∃ t : Fin cfg0.N, (cfg0.win 7).flush t = true ∧ i ∈ ((cfg0.win 7).blk t).view.set := by
  have hi0 : (i 0).val < 10240 := (i 0).isLt
  have hi1 : (i 1).val < 256 := (i 1).isLt
  obtain ⟨t, ht⟩ : ∃ t : Fin cfg0.N, t.val = (i 0).val / 256 :=
    ⟨⟨(i 0).val / 256, by show (i 0).val / 256 < grid0.N; rw [N_0]; omega⟩, rfl⟩
  obtain ⟨-, -, -, -, -, -, -, -, -, -, -, -, -, -, -, -, e70, e71⟩ := block_indices t
  refine ⟨t, flush0_7 t, ?_⟩
  rw [mem_block]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 256 ≤ (i 1).val ∧ (i 1).val < win0_7.index t (1 : Fin 2) * 256 + 256; omega

/-- The output array after the run is the flat layer of the arrays as the kernel finds them. -/
theorem output_array (c : Dev nD) : (dats m 0 c).arrAt 7 cfg0.N
    = flatLayer (V m c main_v0) (V m c main_v1) (V m c main_v2) (V m c main_arg3) (V m c main_arg4) (V m c main_arg5) (V m c main_v3) :=
  (dats m 0 c).arrAt_eq_of_cover 7 _ (fun t _ => flushed_eq m c t) covered

/-! ## The reshapes around the kernel -/

/-- The kernel finds x_self flattened to [10240, 128]. -/
theorem flat_self (c : Dev nD) : (V m c main_v0 : S10240x128.Idx → EReal)
    = shapeCast S10240x128 (m ((c : Thread nD τ).loc main_arg0)) shapeCasts_S1024x10x128_S10240x128 := by
  show StableHlo.after hostOps0 (fun b => m (c, b)) (Proc.devRef .tc main_v0) = _
  after_results
  rfl

/-- It finds x_neigh_0 flattened to [10240, 32, 128]. -/
theorem flat_neigh0 (c : Dev nD) : (V m c main_v1 : S10240x32x128.Idx → EReal)
    = shapeCast S10240x32x128 (m ((c : Thread nD τ).loc main_arg1)) shapeCasts_S1024x10x32x128_S10240x32x128 := by
  show StableHlo.after hostOps0 (fun b => m (c, b)) (Proc.devRef .tc main_v1) = _
  after_results
  rfl

/-- It finds x_neigh_1 flattened to [10240, 32, 128]. -/
theorem flat_neigh1 (c : Dev nD) : (V m c main_v2 : S10240x32x128.Idx → EReal)
    = shapeCast S10240x32x128 (m ((c : Thread nD τ).loc main_arg2)) shapeCasts_S1024x10x32x128_S10240x32x128 := by
  show StableHlo.after hostOps0 (fun b => m (c, b)) (Proc.devRef .tc main_v2) = _
  after_results
  rfl

/-- It finds the bias as one row [1, 256]. -/
theorem bias_row (c : Dev nD) : (V m c main_v3 : S1x256.Idx → EReal)
    = shapeCast S1x256 (m ((c : Thread nD τ).loc main_arg6)) shapeCasts_S256_S1x256 := by
  show StableHlo.after hostOps0 (fun b => m (c, b)) (Proc.devRef .tc main_v3) = _
  after_results
  rfl

/-- The program's result is the kernel's output array reshaped to [1024, 10, 256]. -/
theorem result_array (c : Dev nD) : Pipeline.afterTail₀ cfgs (dats m) 0 (V0 m) [hostOps1] c main_v5
    = shapeCast S1024x10x256 ((dats m 0 c).arrAt 7 cfg0.N) shapeCasts_S10240x256_S1024x10x256 := by
  unfold Pipeline.afterTail₀
  show StableHlo.after hostOps1 _ (Proc.devRef .tc main_v5) = _
  after_results
  show shapeCast S1024x10x256 (Pipeline.withArrays (cfgs 0).spec c (V0 m c) (fun w => (dats m 0 c).arrAt w (cfgs 0).N)
      (Proc.devRef .tc main_v4)) shapeCasts_S10240x256_S1024x10x256 = _
  exact congrArg (fun A => shapeCast S1024x10x256 A shapeCasts_S10240x256_S1024x10x256)
    (Pipeline.withArrays_arr spec0 launch0.win.arr_inj c _ _ 7)

/-! ## Through the reshapes, the flat layer is the layer -/

/-- Row r = 10 b + h of the flattened arrays is row (b, h) of the arguments, and the reshaped output's entry (b, h, q) is
    the flat output's entry (10 b + h, q): each reshape keeps the row-major position. With the entry law this makes the
    reshaped flat layer the layer function. -/
theorem reshaped_flatLayer (x0 : S1024x10x128.Idx → EReal) (x1 x2 : S1024x10x32x128.Idx → EReal) (x3 x4 x5 : S128x128.Idx → EReal)
    (x6 : S256.Idx → EReal) :
    shapeCast S1024x10x256
        (flatLayer (shapeCast S10240x128 x0 shapeCasts_S1024x10x128_S10240x128)
          (shapeCast S10240x32x128 x1 shapeCasts_S1024x10x32x128_S10240x32x128)
          (shapeCast S10240x32x128 x2 shapeCasts_S1024x10x32x128_S10240x32x128) x3 x4 x5
          (shapeCast S1x256 x6 shapeCasts_S256_S1x256))
        shapeCasts_S10240x256_S1024x10x256
      = RowLaw.layer x0 x1 x2 x3 x4 x5 x6 := by
  funext i
  obtain ⟨b, h, q, rfl⟩ : ∃ (b : Fin 1024) (h : Fin 10) (q : Fin 256), i = ix3 b h q := ⟨i 0, i 1, i 2, eq_ix3 i⟩
  have hr : b.val * 10 + h.val < 10240 := by have := b.isLt; have := h.isLt; omega
  refine (shapeCast_apply _ shapeCasts_S10240x256_S1024x10x256 (ix3 b h q) (ix2 (⟨b.val * 10 + h.val, hr⟩ : Fin 10240) q) (by
    rw [Shape.rowMajor_val_two, Shape.rowMajor_val_three]; rfl)).trans ?_
  unfold flatLayer RowLaw.layer
  refine (RowLaw.entryKernel_congr (xs' := fun f => x0 (ix3 b h f)) (y0' := fun n f => x1 (ix4 b h n f))
    (y1' := fun n f => x2 (ix4 b h n f)) (ws' := x3) (w0' := x4) (w1' := x5) (bias' := x6 (ix1 q)) (q' := q)
    (fun f => ?_) (fun n f => ?_) (fun n f => ?_) (fun _ => rfl) (fun _ => rfl) (fun _ => rfl) ?_ rfl).trans
    (RowLaw.entryKernel_eq _ _ _ _ _ _ _ _)
  · exact shapeCast_apply x0 shapeCasts_S1024x10x128_S10240x128 _ (ix3 b h f) (by
      rw [Shape.rowMajor_val_two, Shape.rowMajor_val_three]; rfl)
  · exact shapeCast_apply x1 shapeCasts_S1024x10x32x128_S10240x32x128 _ (ix4 b h n f) (by
      rw [Shape.rowMajor_val_three, Shape.rowMajor_val_four]; rfl)
  · exact shapeCast_apply x2 shapeCasts_S1024x10x32x128_S10240x32x128 _ (ix4 b h n f) (by
      rw [Shape.rowMajor_val_three, Shape.rowMajor_val_four]; rfl)
  · exact shapeCast_apply x6 shapeCasts_S256_S1x256 _ (ix1 q) (by
      rw [Shape.rowMajor_val_two, Shape.rowMajor_val_one]; show q.val = 0 * 256 + q.val; omega)

/-! ## The kernel program's run, re-posted -/

/-- The result buffer after the run is the layer function of the argument arrays as launched. -/
theorem result_value (c : Dev nD) : Pipeline.afterTail₀ cfgs (dats m) 0 (V0 m) [hostOps1] c main_v5
    = RowLaw.layer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [result_array, output_array, flat_self, flat_neigh0, flat_neigh1, bias_row, V_main_arg3, V_main_arg4, V_main_arg5]
  exact reshaped_flatLayer _ _ _ _ _ _ _

/-- Every weakly fair execution of the kernel program terminates with the result buffer at the layer function of the
    arguments and the arguments unchanged. -/
theorem run : θ_run defs (onTc (τ := τ) (main (F := Ideal))) ⟨m, fun _ => 0, ρ⟩ (fun r => ∀ c : Dev nD,
      r.2.mem ((c.tc : Thread nD τ).loc main_v5)
        = RowLaw.layer (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v5 (Pipeline.mem_restRefs_of main_v5 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelArray

end
-- ==== Proof.lean ====
/-
  The certificate of a two-relation neighbour-mean layer: out = relu(concat(x_self W_self, mean over the two relations of
  (mean over the 32 neighbours of x_neigh_k) W_k) + b), over x_self [1024, 10, 128], x_neigh_k [1024, 10, 32, 128],
  weights [128, 128] and bias [256].

  The kernel flattens the row axes, and per block of 256 rows takes each relation's neighbour mean (sum times 1/32) BEFORE
  projecting it, then halves the sum of the two projections (times 1/2). The reference projects each relation's neighbour
  SUM and divides by 32 afterwards, then divides the sum by 2. At the exact values the two are one function of the
  arguments: 1/32 and 1/2 are exact binary fractions, dividing by 32 (by 2) is multiplying by 1/32 (by 1/2), and a finite
  nonnegative factor moves across a finite sum of extended reals whatever the summands are — so the inputs' finiteness is
  not used. The narrowing to bf16 before the products is the identity at the exact values.

  Both programs' results are stated as ONE term, the layer function of the argument arrays (Proof/RowLaw.lean): the
  reference's run read entry by entry (Proof/ReferenceRow.lean), the kernel's stored block value read entry by entry
  (Proof/KernelRow.lean), the 40 row blocks assembled into the output array and carried through the reshapes around the
  kernel (Proof/KernelArray.lean). No rewrite was applied in idealizing the kernel, so the preservation claim is trivial.
-/
import proofs.«139541_j50294067036664_1_alg».proof.Defs
import proofs.«139541_j50294067036664_1_alg».proof.Proof.Gen.Kernel
import proofs.«139541_j50294067036664_1_alg».proof.Proof.Gen.Kernel.Skeleton
import proofs.«139541_j50294067036664_1_alg».proof.Proof.Gen.Kernel.Launch
import proofs.«139541_j50294067036664_1_alg».proof.Proof.Gen.Kernel.Points
import proofs.«139541_j50294067036664_1_alg».proof.Proof.Gen.Kernel.Frame
import proofs.«139541_j50294067036664_1_alg».proof.Proof.Gen.KernelIdeal
import proofs.«139541_j50294067036664_1_alg».proof.Proof.Gen.KernelIdeal.Skeleton
import proofs.«139541_j50294067036664_1_alg».proof.Proof.Gen.KernelIdeal.Launch
import proofs.«139541_j50294067036664_1_alg».proof.Proof.Gen.KernelIdeal.Points
import proofs.«139541_j50294067036664_1_alg».proof.Proof.Gen.KernelIdeal.Frame
import proofs.«139541_j50294067036664_1_alg».proof.Proof.Gen.ReferenceIdeal
import proofs.«139541_j50294067036664_1_alg».proof.Proof.Gen.Pre_finite_inputs
import proofs.«139541_j50294067036664_1_alg».proof.Proof.Gen.ReferenceIdeal.Run
import proofs.«139541_j50294067036664_1_alg».proof.Proof.Gen.ReferenceIdeal.Read
import proofs.«139541_j50294067036664_1_alg».proof.Proof.RowLaw
import proofs.«139541_j50294067036664_1_alg».proof.Proof.ReferenceRow
import proofs.«139541_j50294067036664_1_alg».proof.Proof.KernelRow
import proofs.«139541_j50294067036664_1_alg».proof.Proof.KernelArray
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read at the exact values. -/
theorem frame_kernelIdeal : Cert.frame_KernelIdeal := fun m ρ _ => Cert.KernelIdeal.Gen.frame m ρ

/-- The reference program runs and keeps its arguments: its run with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the result at the layer function of the
    arguments: the kernel's by its run re-posted, the reference's by its last stage read entry by entry. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceRow.result_eq,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
